-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S100000x1024 : Shape := ⟨2, ![100000, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_

variable [Facts]

def fn {F : FTy → Type} [FloatOps F] (main_arg0 : FVec F S32x1x1024 .f32) (main_arg1 : FVec F S100000x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  main_v8
-- ==== Kernel.lean ====
abbrev S32x1x1024 : Shape := ⟨3, ![32, 1, 1024]⟩
abbrev S100000x1024 : Shape := ⟨2, ![100000, 1024]⟩
abbrev S32x1x100000 : Shape := ⟨3, ![32, 1, 100000]⟩
abbrev S2048x1024 : Shape := ⟨2, ![2048, 1024]⟩
abbrev S32x1x2048 : Shape := ⟨3, ![32, 1, 2048]⟩
abbrev S32x1024 : Shape := ⟨2, ![32, 1024]⟩
abbrev S32x2048 : Shape := ⟨2, ![32, 2048]⟩

abbrev nBuf : Space → Nat
  | .hbm => 3
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S100000x1024, .f32⟩
  | .hbm, ⟨2, _⟩ => ⟨S32x1x100000, .f32⟩
  | .local _ .vmem, ⟨0, _⟩ => ⟨S32x1x1024, .f32⟩
  | .local _ .vmem, ⟨1, _⟩ => ⟨S2048x1024, .f32⟩
  | .local _ .vmem, ⟨2, _⟩ => ⟨S2048x1024, .f32⟩
  | .local _ .vmem, ⟨3, _⟩ => ⟨S32x1x2048, .f32⟩
  | .local _ .vmem, ⟨4, _⟩ => ⟨S32x1x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S32x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x1x1024_S32x1x1024_0_0_0 : ∀ a, (![0, 0, 0] : Fin 3 → Nat) a + S32x1x1024.size a ≤ S32x1x1024.size a
  h_S32x1x1024 : 0 < S32x1x1024.numel
  shapeCasts_S32x1x1024_S32x1024 : S32x1x1024.ShapeCasts S32x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S32x1x2048_S32x1x2048_0_0_0 : ∀ a, (![0, 0, 0] : Fin 3 → Nat) a + S32x1x2048.size a ≤ S32x1x2048.size a
  h_S32x1x2048 : 0 < S32x1x2048.numel
  shapeCasts_S32x1x2048_S32x2048 : S32x1x2048.ShapeCasts S32x2048
  shapeCasts_S32x2048_S32x1x2048 : S32x2048.ShapeCasts S32x1x2048
  dot_S32x1024_S2048x1024_S32x2048_1_1_0_0_n_n_wf : DotDims.WF S32x1024 S2048x1024 S32x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1x1024.size a ≤ S32x1x1024.size a
  hwx0_0 : ∀ i : grid0.Coords, EltTy.bits .f32 = 32 ∨ (Rect.block (s := S32x1x1024) S32x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x1x2048.size a < S32x1x100000.size a
  hwx0_2 : ∀ i : grid0.Coords, EltTy.bits .f32 = 32 ∨ (Rect.unit (s := S32x1x100000) (fun a => cc0_transform_2 i a * S32x1x2048.size a) (fun a => (Pipeline.Clip.of (cc0_transform_2 i a) (S32x1x2048.size a) (S32x1x100000.size a)).extent (S32x1x2048.size a)) fun a => Pipeline.Clip.inb (Pipeline.Clip.ok_of (hstart0_2 i a))).WholeWords (EltTy.packing .f32)
  hwxs0_2 : ∀ i : grid0.Coords, EltTy.bits .f32 = 32 ∨ (Rect.unit (s := S32x1x2048) (fun _ => 0) (fun a => (Pipeline.Clip.of (cc0_transform_2 i a) (S32x1x2048.size a) (S32x1x100000.size a)).extent (S32x1x2048.size a)) fun a => (Nat.zero_add _).trans_le (Pipeline.Clip.extent_le (Pipeline.Clip.ok_of (hstart0_2 i a)))).WholeWords (EltTy.packing .f32)

variable [Facts₀]

def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf

abbrev win0_0 : Pipeline.Window sig grid0 :=
  Pipeline.Window.ofSpec (Memref.whole main_arg0) S32x1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S32x1x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S100000x1024 : Shape := ⟨2, ![100000, 1024]⟩
abbrev S32x1x100000 : Shape := ⟨3, ![32, 1, 100000]⟩

abbrev nBuf : Space → Nat
  | .hbm => 3
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S100000x1024, .f32⟩
  | .hbm, ⟨2, _⟩ => ⟨S32x1x100000, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x1x1024_S100000x1024_S32x1x100000_2_1_01_0_n_n_wf : DotDims.WF S32x1x1024 S100000x1024 S32x1x100000 [2] [1] [0, 1] [0] [] []

variable [Facts₀]

def dot_S32x1x1024_S100000x1024_S32x1x100000_2_1_01_0_n_n : DotDims S32x1x1024 S100000x1024 S32x1x100000 where
  lhsContracting := [2]
  rhsContracting := [1]
  lhsNonContracting := [0, 1]
  rhsNonContracting := [0]
  lhsBatch := []
  rhsBatch := []
  wf := dot_S32x1x1024_S100000x1024_S32x1x100000_2_1_01_0_n_n_wf

class Facts : Prop extends Facts₀ where

variable [Facts]
-- ==== Proof.HeadBodyB.lean ====
/-
  The kernel body's triple, stated once for any float instance.

  The body of the head kernel reads the whole hidden-state staging block and the whole weight staging block,
  forms their product (each output entry contracts the hidden axis), reads the output staging block without
  using it, and stores the product over the whole output staging block. So, whichever staging buffers the
  pipeline's slots select, the two input buffers come back holding what they held and the output buffer
  holds the product term of those two contents.
-/
import proofs.«162671_g17927193493834_cont_7to1_830_4_alg».proof.Proof.Gen.Kernel.Frame
import proofs.«162671_g17927193493834_cont_7to1_830_4_alg».proof.Proof.Gen.Kernel.Skeleton
import Idealize.ShloMosaic.Lib.Pipeline.Kit
import Idealize.ShloMosaic.Lib.Tactic

noncomputable section

namespace Cert.Kernel.HeadBody

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The kernel has no variants of its own. -/
abbrev 𝒱₀ : Variants := Variants.none

/-- The offsets of every access of the body are zero on each axis. -/
theorem zero3 : (![0, 0, 0] : Fin 3 → Nat) = fun _ => 0 := funext fun a => by fin_cases a <;> rfl
theorem zero2 : (![0, 0] : Fin 2 → Nat) = fun _ => 0 := funext fun a => by fin_cases a <;> rfl

/-- A load of the whole hidden-state staging buffer reads its contents; -/
theorem read_hidden : (Memref.whole cc0_stg0_0 : Memref sig .tc _ _ _).view.readAt (Elt F)
    (Rect.unit (s := S32x1x1024) ![0, 0, 0] S32x1x1024.size inb_S32x1x1024_S32x1x1024_0_0_0).toLoadRect = id :=
  funext (Memref.readAt_unit_zero (Elt F) cc0_stg0_0 zero3 _)

/-- so does a load of either whole weight staging buffer; -/
theorem read_weight_a : (Memref.whole cc0_stg1_0 : Memref sig .tc _ _ _).view.readAt (Elt F)
    (Rect.unit (s := S2048x1024) ![0, 0] S2048x1024.size inb_S2048x1024_S2048x1024_0_0).toLoadRect = id :=
  funext (Memref.readAt_unit_zero (Elt F) cc0_stg1_0 zero2 _)
theorem read_weight_b : (Memref.whole cc0_stg1_1 : Memref sig .tc _ _ _).view.readAt (Elt F)
    (Rect.unit (s := S2048x1024) ![0, 0] S2048x1024.size inb_S2048x1024_S2048x1024_0_0).toLoadRect = id :=
  funext (Memref.readAt_unit_zero (Elt F) cc0_stg1_1 zero2 _)

/-- and an unmasked store over either whole output staging buffer leaves the stored value. -/
theorem write_out_a (f w) : (((Memref.whole cc0_stg2_0).access (Rect.unit (s := S32x1x2048) ![0, 0, 0] S32x1x2048.size
    inb_S32x1x2048_S32x1x2048_0_0_0)) : View sig .tc _ _ _).write (Elt F) f w Finset.univ = w :=
  Memref.write_access_unit_zero_univ (Elt F) cc0_stg2_0 zero3 _ f w
theorem write_out_b (f w) : (((Memref.whole cc0_stg2_1).access (Rect.unit (s := S32x1x2048) ![0, 0, 0] S32x1x2048.size
    inb_S32x1x2048_S32x1x2048_0_0_0)) : View sig .tc _ _ _).write (Elt F) f w Finset.univ = w :=
  Memref.write_access_unit_zero_univ (Elt F) cc0_stg2_1 zero3 _ f w

/-- One run of the body on the hidden-state buffer `s0`, the weight buffer `s1` and the output buffer `s2`,
    holding `X0`, `X1`, `X2`: the inputs are returned unchanged and the output buffer holds the product term
    of `X0` and `X1` (what it held before is read and dropped). -/
theorem body_triple (c : Dev nD) (E : Set ℕ) (i : grid0.Coords) (s0 : Fin 1) (s1 : Fin 2) (s2 : Fin 2)
    (X0 : Vec F S32x1x1024 .f32) (X1 : Vec F S2048x1024 .f32) (X2 : Vec F S32x1x2048 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__head_kernel i (stage0_0 s0) (hstage0_0 s0) (stage0_1 s1) (hstage0_1 s1) (stage0_2 s2) (hstage0_2 s2)) K := by
  fin_cases s0 <;> fin_cases s1 <;> fin_cases s2 <;>
  · simp only [owns_whole_eq, cc0__head_kernel_eq_skeleton]; unfold cc0__head_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [read_hidden]
    first | rw [read_weight_a] | rw [read_weight_b]
    first | rw [write_out_a] | rw [write_out_b]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.Kernel.HeadBody

end
-- ==== Proof.HeadFrameB.lean ====
/-
  The frame of the head kernel as printed: every run terminates, nothing faults, and the two argument arrays end
  as they began.

  Nothing is said here of what the staging buffers or the result array hold: the proof data relate what the body
  is handed in a buffer to what it leaves there by the relation that holds of everything. That is all a frame
  needs. The body takes no branch, address, trip count or wait amount from any word it loads, so it runs the same
  way on any contents; and an input array is never written, so it ends at its launch contents whatever the
  staging buffers held. (The last weight block overhangs the array: the staging rows past the array's end hold
  words nothing names, and the product carries them into output columns the clipped write-back never writes.)
-/
import proofs.«162671_g17927193493834_cont_7to1_830_4_alg».proof.Proof.HeadBodyB
import Idealize.ShloMosaic.Lib.Pipeline.Frame

noncomputable section

namespace Cert.Kernel.HeadFrame

open Cert.Kernel Cert.Kernel.Gen Cert.Kernel.HeadBody

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on device `c`: the arrays as launched; of what the body leaves in a staging buffer, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, on whatever the three current staging buffers hold, the body runs and hands each buffer back
    at some contents. -/
theorem body_obligation (c : Dev nD) : (rdats m c).BodyObligation (defs₀ (F := F)) 𝒱₀ () Set.univ := fun t Y _ => by
  rw [bigSep_W0, bigSep_W0]
  rw [show (rdats m c).Φ t.succ = (rdats m c).Φ t.castSucc from rfl,
    show (rdats m c).owesAt () t.succ = (rdats m c).owesAt () t.castSucc from rfl]
  iintro ⟨HΦ, Ho, H0, H1, H2⟩
  iapply (body_triple (F := F) c Set.univ (grid0.coords t) (cfg0.slots t 0) (cfg0.slots t 1) (cfg0.slots t 2) (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists k0_pay1 (Y 0) (Y 1); isplitr; · ipureintro; trivial
    iexact H2

theorem share_full (c : Dev nD) (w : Fin cfg0.W) : (rdats m c).share w = fullShare := by
  unfold RDat.share; split <;> rfl

/-- Every weakly fair execution of @main terminates, and every final state has each array of the kernel at
    contents it may hold after the write-backs: for an input, its launch contents. -/
theorem run_frame : θ_run defs (onTc (τ := τ) (main (F := F))) (s₀ m ρ) (RDat.FramePost cfg0 (rdats m) (V m)) :=
  Pipeline.RDat.θ_run_frame cfgs 0 launch0 defs₀ 𝒱₀ (rdats m) m ρ main
    (hbody := body_obligation m) (hshare := share_full m) (howed := fun _ _ => rfl)
    (V := V m) (hmain := hmain m 𝒱₀) (hA := fun _ _ => rfl) (hΦ := fun _ _ => rfl)

/-- The frame: the run above, read at the two argument arrays. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(RDat.FramePost.arr_in h c (0 : Fin 3) rfl).trans (V_main_arg0 m c),
       (RDat.FramePost.arr_in h c (1 : Fin 3) rfl).trans (V_main_arg1 m c)⟩) (run_frame m ρ)

end Cert.Kernel.HeadFrame

end
-- ==== Proof.HeadBodyI.lean ====
/-
  The kernel body's triple, stated once for any float instance.

  The body of the head kernel reads the whole hidden-state staging block and the whole weight staging block,
  forms their product (each output entry contracts the hidden axis), reads the output staging block without
  using it, and stores the product over the whole output staging block. So, whichever staging buffers the
  pipeline's slots select, the two input buffers come back holding what they held and the output buffer
  holds the product term of those two contents.
-/
import proofs.«162671_g17927193493834_cont_7to1_830_4_alg».proof.Proof.Gen.KernelIdeal.Frame
import proofs.«162671_g17927193493834_cont_7to1_830_4_alg».proof.Proof.Gen.KernelIdeal.Skeleton
import Idealize.ShloMosaic.Lib.Pipeline.Kit
import Idealize.ShloMosaic.Lib.Tactic

noncomputable section

namespace Cert.KernelIdeal.HeadBody

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The kernel has no variants of its own. -/
abbrev 𝒱₀ : Variants := Variants.none

/-- The offsets of every access of the body are zero on each axis. -/
theorem zero3 : (![0, 0, 0] : Fin 3 → Nat) = fun _ => 0 := funext fun a => by fin_cases a <;> rfl
theorem zero2 : (![0, 0] : Fin 2 → Nat) = fun _ => 0 := funext fun a => by fin_cases a <;> rfl

/-- A load of the whole hidden-state staging buffer reads its contents; -/
theorem read_hidden : (Memref.whole cc0_stg0_0 : Memref sig .tc _ _ _).view.readAt (Elt F)
    (Rect.unit (s := S32x1x1024) ![0, 0, 0] S32x1x1024.size inb_S32x1x1024_S32x1x1024_0_0_0).toLoadRect = id :=
  funext (Memref.readAt_unit_zero (Elt F) cc0_stg0_0 zero3 _)

/-- so does a load of either whole weight staging buffer; -/
theorem read_weight_a : (Memref.whole cc0_stg1_0 : Memref sig .tc _ _ _).view.readAt (Elt F)
    (Rect.unit (s := S2048x1024) ![0, 0] S2048x1024.size inb_S2048x1024_S2048x1024_0_0).toLoadRect = id :=
  funext (Memref.readAt_unit_zero (Elt F) cc0_stg1_0 zero2 _)
theorem read_weight_b : (Memref.whole cc0_stg1_1 : Memref sig .tc _ _ _).view.readAt (Elt F)
    (Rect.unit (s := S2048x1024) ![0, 0] S2048x1024.size inb_S2048x1024_S2048x1024_0_0).toLoadRect = id :=
  funext (Memref.readAt_unit_zero (Elt F) cc0_stg1_1 zero2 _)

/-- and an unmasked store over either whole output staging buffer leaves the stored value. -/
theorem write_out_a (f w) : (((Memref.whole cc0_stg2_0).access (Rect.unit (s := S32x1x2048) ![0, 0, 0] S32x1x2048.size
    inb_S32x1x2048_S32x1x2048_0_0_0)) : View sig .tc _ _ _).write (Elt F) f w Finset.univ = w :=
  Memref.write_access_unit_zero_univ (Elt F) cc0_stg2_0 zero3 _ f w
theorem write_out_b (f w) : (((Memref.whole cc0_stg2_1).access (Rect.unit (s := S32x1x2048) ![0, 0, 0] S32x1x2048.size
    inb_S32x1x2048_S32x1x2048_0_0_0)) : View sig .tc _ _ _).write (Elt F) f w Finset.univ = w :=
  Memref.write_access_unit_zero_univ (Elt F) cc0_stg2_1 zero3 _ f w

/-- One run of the body on the hidden-state buffer `s0`, the weight buffer `s1` and the output buffer `s2`,
    holding `X0`, `X1`, `X2`: the inputs are returned unchanged and the output buffer holds the product term
    of `X0` and `X1` (what it held before is read and dropped). -/
theorem body_triple (c : Dev nD) (E : Set ℕ) (i : grid0.Coords) (s0 : Fin 1) (s1 : Fin 2) (s2 : Fin 2)
    (X0 : Vec F S32x1x1024 .f32) (X1 : Vec F S2048x1024 .f32) (X2 : Vec F S32x1x2048 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__head_kernel i (stage0_0 s0) (hstage0_0 s0) (stage0_1 s1) (hstage0_1 s1) (stage0_2 s2) (hstage0_2 s2)) K := by
  fin_cases s0 <;> fin_cases s1 <;> fin_cases s2 <;>
  · simp only [owns_whole_eq, cc0__head_kernel_eq_skeleton]; unfold cc0__head_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [read_hidden]
    first | rw [read_weight_a] | rw [read_weight_b]
    first | rw [write_out_a] | rw [write_out_b]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.KernelIdeal.HeadBody

end
-- ==== Proof.HeadDataI.lean ====
/-
  The pipeline's proof data for the idealized head kernel, and what the body finds in each staging buffer.

  At grid point `t` the pipeline hands the body: the hidden-state block (the whole array, fetched once and kept),
  weight rows `2048·t ‥ 2048·t + 2047` — at the last point only the 1696 rows inside the array, the staging
  rows past them holding whatever was there —, and an output staging block whose contents nothing names. The
  body leaves the inputs as they were and the output block at the product term of the two input blocks.
  The staging rows past the array's end are filled with zero in this data; nothing reads them: the obligation for
  the weight and output windows states their buffers on the part inside the array only.
-/
import proofs.«162671_g17927193493834_cont_7to1_830_4_alg».proof.Proof.HeadBodyI
import Idealize.ShloMosaic.Lib.Pipeline.Frame
import Idealize.ShloMosaic.PureOps.Ideal

noncomputable section

namespace Cert.KernelIdeal.HeadData

open Cert.KernelIdeal Cert.KernelIdeal.Gen Cert.KernelIdeal.HeadBody

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

/-- The hidden-state block at point `t`: the whole hidden-state array. -/
abbrev hiddenBlk (c : Dev nD) (t : Fin cfg0.N) : Vec Ideal S32x1x1024 .f32 := iblk m c 0 t

/-- The weight rows of point `t` that lie inside the array, as the fetch reads them. -/
abbrev weightPart (c : Dev nD) (t : Fin cfg0.N) : ((cfg0.win 1).xblock (cfg0.grid.coords t)).Idx → Elt Ideal (cfg0.win 1).elt :=
  iblk m c 1 t

/-- The weight staging block at point `t`: those rows, over contents `d` on the rows past the array's end. -/
abbrev weightBlk (c : Dev nD) (t : Fin cfg0.N) (d : Vec Ideal S2048x1024 .f32) : Vec Ideal S2048x1024 .f32 :=
  win0_1.fill (grid0.coords t) d (weightPart m c t)

/-- The proof data on device `c`: the arrays as launched; after the body the hidden-state buffer at its block, the
    weight buffer at its rows filled out with zero, the output buffer at the product term of those two. -/
def dats (_ : Fin 1) (c : Dev nD) : Dat τ (Elt Ideal) Unit ℕ (UR sig nD τ) ℕ cfg0 c where
  A w := V m c (Pipeline.arrRef spec0 w)
  after w t := match w with
    | ⟨0, _⟩ => hiddenBlk m c t
    | ⟨1, _⟩ => weightBlk m c t (fun _ => (0 : EReal))
    | ⟨2, _⟩ => k0_pay1 (hiddenBlk m c t) (weightBlk m c t (fun _ => (0 : EReal)))
  Φ _ := Pipeline.ΦA spec0 c
  q _ := fullShare
  owed _ := 0

/-- The hidden-state buffer holds the hidden-state array at every point (fetched at the first, kept afterwards). -/
theorem before_hidden (c : Dev nD) (t : Fin cfg0.N) (d) : (dats m 0 c).before (0 : Fin 3) t d = hiddenBlk m c t :=
  before0_0_of m (dats m 0 c) rfl (fun _ => rfl) t d

/-- The weight buffer is fetched at every point: the rows inside the array over whatever the buffer held. -/
theorem before_weight (c : Dev nD) (t : Fin cfg0.N) (d) : (dats m 0 c).before (1 : Fin 3) t d = weightBlk m c t d := by
  unfold Dat.before; rw [if_pos (fetch0_1 t)]; rfl

/-- The output buffer is written back at every point, so the body finds contents nothing names. -/
theorem before_out (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

end Cert.KernelIdeal.HeadData

end
-- ==== Proof.HeadPayload.lean ====
import proofs.«162671_g17927193493834_cont_7to1_830_4_alg».proof.Proof.Gen.KernelIdeal.Skeleton
import Idealize.ShloMosaic.PureOps.Ideal.Laws
import Idealize.ShloMosaic.Lib.ValueIdx
import Idealize.ShloMosaic.Lib.Pipeline.Value

/-!
# The head kernel's stored block, read at one index

The kernel body stores one value: the block product of the hidden rows with the weight block's rows,
`out[b, 0, j] = ∑ k, hidden[b, 0, k] * weight[j, k]`, computed by dropping the hidden block's middle unit
axis, contracting both operands over their last axis into a zero accumulator, and putting the unit axis
back. At the ideal values the two narrowing format changes are the identity, so the stored value at
`(b, s, j)` is exactly that sum over `k : Fin 1024`.
-/

noncomputable section

namespace Cert.HeadPayload

open Cert.KernelIdeal Cert.KernelIdeal.Gen Idealize.ShloMosaic Idealize.ShloMosaic.ValueIdx Idealize.SL.Sem

variable [Cert.KernelIdeal.Facts]

/-! ## A middle unit axis dropped or added by a shape cast -/

/-- An `[a, 1, b]` array cast to `[a, b]` reads, at `(i, j)`, the operand at `(i, u, j)`, whatever the unit
    coordinate `u`: both positions in row-major order are `i * b + j`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (u : Fin 1) (j : Fin b) :
    shapeCast ⟨2, ![a, b]⟩ x h (ix2 i j) = x (ix3 i u j) :=
  shapeCast_apply x h _ _ (by
    have hu : u.val = 0 := by omega
    rw [Shape.rowMajor_val_three, Shape.rowMajor_val_two]
    show (i.val * 1 + u.val) * b + j.val = i.val * b + j.val
    rw [hu, Nat.mul_one, Nat.add_zero])

/-- An `[a, b]` array cast to `[a, 1, b]` reads, at `(i, u, j)`, the operand at `(i, j)`, whatever the unit
    coordinate `u`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-! ## The operands' indices of the block product

The product contracts axis 1 of both operands and keeps axis 0 of each: at output index `(r, c)` and
contraction index `q` the left operand is read at `(r, q)` and the right one at `(c, q)`. -/

/-- The left operand's kept axis reads the output's row. -/
theorem lhs_head_0 (i : S32x2048.Idx) (q : dot_S32x1024_S2048x1024_S32x2048_1_1_0_0_n_n.contr.Idx) :
    (dot_S32x1024_S2048x1024_S32x2048_1_1_0_0_n_n.lhsIdx i q 0).val = (i 0).val := by
  unfold DotDims.lhsIdx
  rw [dif_neg (show ¬(0 : Fin S32x1024.rank) ∈ dot_S32x1024_S2048x1024_S32x2048_1_1_0_0_n_n.lhsBatch by decide), dif_pos (show (0 : Fin S32x1024.rank) ∈ dot_S32x1024_S2048x1024_S32x2048_1_1_0_0_n_n.lhsNonContracting by decide)]
  rfl
/-- The left operand's contracted axis reads the contraction index. -/
theorem lhs_head_1 (i : S32x2048.Idx) (q : dot_S32x1024_S2048x1024_S32x2048_1_1_0_0_n_n.contr.Idx) :
    (dot_S32x1024_S2048x1024_S32x2048_1_1_0_0_n_n.lhsIdx i q 1).val = (q ⟨0, by decide⟩).val :=
  dot_S32x1024_S2048x1024_S32x2048_1_1_0_0_n_n.lhsIdx_val_of_single rfl i q
/-- The right operand's kept axis reads the output's column. -/
theorem rhs_head_0 (i : S32x2048.Idx) (q : dot_S32x1024_S2048x1024_S32x2048_1_1_0_0_n_n.contr.Idx) :
    (dot_S32x1024_S2048x1024_S32x2048_1_1_0_0_n_n.rhsIdx i q 0).val = (i 1).val := by
  unfold DotDims.rhsIdx
  rw [dif_neg (show ¬(0 : Fin S2048x1024.rank) ∈ dot_S32x1024_S2048x1024_S32x2048_1_1_0_0_n_n.rhsBatch by decide), dif_pos (show (0 : Fin S2048x1024.rank) ∈ dot_S32x1024_S2048x1024_S32x2048_1_1_0_0_n_n.rhsNonContracting by decide)]
  rfl
/-- The right operand's contracted axis reads the contraction index. -/
theorem rhs_head_1 (i : S32x2048.Idx) (q : dot_S32x1024_S2048x1024_S32x2048_1_1_0_0_n_n.contr.Idx) :
    (dot_S32x1024_S2048x1024_S32x2048_1_1_0_0_n_n.rhsIdx i q 1).val = (q ⟨0, by decide⟩).val :=
  dot_S32x1024_S2048x1024_S32x2048_1_1_0_0_n_n.rhsIdx_val_of_single rfl i q

/-! ## The block product at an index -/

/-- The product of a `[32, 1024]` block with a `[2048, 1024]` block over their last axes, into the zero
    accumulator, read at `(r, c)`: the sum over `k` of the left block at `(r, k)` times the right block at `(c, k)`. -/
theorem matmul_head_apply {φ₁ φ₂ : FTy} (lhs : FVec Ideal S32x1024 φ₁) (rhs : FVec Ideal S2048x1024 φ₂)
    (r : Fin 32) (c : Fin 2048) :
    matmul (F := Ideal) dot_S32x1024_S2048x1024_S32x2048_1_1_0_0_n_n none lhs rhs (constant (F := Ideal) S32x2048 .f32 0x00000000#32) (ix2 r c)
      = ∑ k : Fin 1024, lhs (ix2 r k) * rhs (ix2 c k) := by
  simp only [matmul]
  rw [Ideal.matmul_constant_zero_apply, ← Equiv.sum_comp (ValueIdx.contrEquiv1 dot_S32x1024_S2048x1024_S32x2048_1_1_0_0_n_n 1024 rfl rfl).symm]
  refine Finset.sum_congr rfl fun k _ => ?_
  have hk := ValueIdx.contrEquiv1_symm_val dot_S32x1024_S2048x1024_S32x2048_1_1_0_0_n_n 1024 rfl rfl k
  have el : dot_S32x1024_S2048x1024_S32x2048_1_1_0_0_n_n.lhsIdx (ix2 r c) ((ValueIdx.contrEquiv1 dot_S32x1024_S2048x1024_S32x2048_1_1_0_0_n_n 1024 rfl rfl).symm k) = ix2 r k := funext fun a => Fin.ext (by
    match a with
    | ⟨0, _⟩ => exact lhs_head_0 _ _
    | ⟨1, _⟩ => exact (lhs_head_1 _ _).trans hk)
  have er : dot_S32x1024_S2048x1024_S32x2048_1_1_0_0_n_n.rhsIdx (ix2 r c) ((ValueIdx.contrEquiv1 dot_S32x1024_S2048x1024_S32x2048_1_1_0_0_n_n 1024 rfl rfl).symm k) = ix2 c k := funext fun a => Fin.ext (by
    match a with
    | ⟨0, _⟩ => exact rhs_head_0 _ _
    | ⟨1, _⟩ => exact (rhs_head_1 _ _).trans hk)
  rw [el, er]

/-! ## The stored value at an index -/

/-- The value the kernel body stores, read at `(b, s, j)`: the sum over `k` of the hidden block at `(b, s, k)` times
    the weight block at `(j, k)`. -/
theorem payload_apply
    (x0 : Vec Ideal Cert.KernelIdeal.S32x1x1024 .f32) (x3 : Vec Ideal Cert.KernelIdeal.S2048x1024 .f32)
    (b : Fin 32) (s : Fin 1) (j : Fin 2048) :
    Cert.KernelIdeal.Gen.k0_pay1 (F := Ideal) x0 x3 (ix3 b s j)
      = ∑ k : Fin 1024, x0 (ix3 b s k) * x3 (ix2 j k) := by
  unfold Cert.KernelIdeal.Gen.k0_pay1
  refine (shapeCast_ab_a1b_apply _ _ b s j).trans ?_
  refine (matmul_head_apply _ _ b j).trans ?_
  refine Finset.sum_congr rfl fun k _ => ?_
  show shapeCast S32x1024 x0 _ (ix2 b k) * x3 (ix2 j k) = x0 (ix3 b s k) * x3 (ix2 j k)
  rw [shapeCast_a1b_ab_apply x0 _ b s k]

end Cert.HeadPayload

end
-- ==== Proof.HeadValueI.lean ====
import proofs.«162671_g17927193493834_cont_7to1_830_4_alg».proof.Proof.HeadDataI
import proofs.«162671_g17927193493834_cont_7to1_830_4_alg».proof.Proof.HeadPayload
import Idealize.ShloMosaic.Lib.Pipeline.Value
import Idealize.ShloMosaic.Lib.ValueIdx

/-!
# The head kernel's result array as one function of its two argument arrays

`logits(b, s, v) = ∑ k, hidden(b, s, k) * weight(v, k)`. The grid's 49 points each write back one block of 2048
columns of it; the last block overhangs the array's end (48 · 2048 = 98304, so 1696 columns lie inside), and
so does the last block of weight rows, cut at the same place. The columns a write-back moves are computed from
weight rows that the fetch moved, so the staging rows past the array's end never enter a value that is kept.
-/

noncomputable section

namespace Cert.KernelIdeal.HeadValue

open Cert.KernelIdeal Cert.KernelIdeal.Gen Cert.KernelIdeal.HeadData Idealize.ShloMosaic Idealize.ShloMosaic.ValueIdx Idealize.ShloMosaic.TcCoe Idealize.SL.Sem
open Idealize.ShloMosaic.Pipeline (Dat Window)

variable (m : (ℓ : Loc nD τ sig) → Buf (Elt Ideal) ℓ)

/-- logits(b, s, v) = Σ_k hidden(b, s, k) · weight(v, k). -/
def logits (h : Vec Ideal S32x1x1024 .f32) (w : Vec Ideal S100000x1024 .f32) : Vec Ideal S32x1x100000 .f32 :=
  fun i => ∑ k : Fin 1024, h (ix3 (i 0) (i 1) k) * w (ix2 (i 2) k)

/-! ## The stored product where the write-back moves it -/

/-- Where the transfer moves every coordinate of an index, the filled block reads the moved part there,
    whatever the block held before. -/
theorem fill_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The weight window and the result window are cut alike: the rows of the weight block inside the array are as
    many as the columns of the result block inside it, and the weight block's columns are never cut. -/
theorem xsize_weight (i : grid0.Coords) : win0_1.xsize i 0 = win0_2.xsize i 2 ∧ win0_1.xsize i 1 = 1024 := ⟨rfl, rfl⟩

/-- A weight-block index whose row is one of the result block's columns inside the array is moved by the weight
    window's transfer. -/
theorem weight_lt (i : grid0.Coords) (r : Fin 2048) (k : Fin 1024) (hr : r.val < win0_2.xsize i 2) :
    ∀ a, ((ix2 r k : S2048x1024.Idx) a).val < win0_1.xsize i a := fun a => by
  match a with
  | ⟨0, _⟩ => show r.val < win0_1.xsize i 0; rw [(xsize_weight i).1]; exact hr
  | ⟨1, _⟩ => show k.val < win0_1.xsize i 1; rw [(xsize_weight i).2]; exact k.isLt

/-- The stored product at a column inside the array: the sum over `k` of the hidden block at `(b, s, k)` times the
    fetched weight rows at `(r, k)`; the staging rows past the array's end do not enter. -/
theorem pay_fill_apply (i : grid0.Coords) (h : Vec Ideal S32x1x1024 .f32) (d : Vec Ideal S2048x1024 .f32)
    (g : (win0_1.xblock i).Idx → EReal) (b : Fin 32) (s : Fin 1) (r : Fin 2048) (hr : r.val < win0_2.xsize i 2) :
    k0_pay1 (F := Ideal) h (win0_1.fill i d g) (ix3 b s r)
      = ∑ k : Fin 1024, h (ix3 b s k) * g fun a => ⟨((ix2 r k : S2048x1024.Idx) a).val, weight_lt i r k hr a⟩ := by
  rw [Cert.HeadPayload.payload_apply]
  refine Finset.sum_congr rfl fun k _ => ?_
  exact congrArg (h (ix3 b s k) * ·) (fill_of_lt win0_1 i d g (ix2 r k) (weight_lt i r k hr))

/-- The part of the stored product that the clipped write-back moves does not see the weight staging rows past
    the array's end. -/
theorem cut_pay_indep (i : grid0.Coords) (h : Vec Ideal S32x1x1024 .f32) (d d' : Vec Ideal S2048x1024 .f32)
    (g : (win0_1.xblock i).Idx → EReal) :
    win0_2.cut i (k0_pay1 (F := Ideal) h (win0_1.fill i d g)) = win0_2.cut i (k0_pay1 (F := Ideal) h (win0_1.fill i d' g)) := by
  funext j
  have e : (win0_2.xinj i j : S32x1x2048.Idx) = ix3 (n0 := 32) (n1 := 1) (n2 := 2048) (win0_2.xinj i j 0) (win0_2.xinj i j 1) (win0_2.xinj i j 2) := eq_ix3 _
  show k0_pay1 (F := Ideal) h (win0_1.fill i d g) (win0_2.xinj i j) = k0_pay1 (F := Ideal) h (win0_1.fill i d' g) (win0_2.xinj i j)
  rw [e]
  exact (pay_fill_apply i h d g _ _ _ (j 2).isLt).trans (pay_fill_apply i h d' g _ _ _ (j 2).isLt).symm

/-! ## What a point writes back -/

/-- The index maps over the grid: the hidden block is always block 0; point `t` takes weight rows from block `t` and
    writes result columns to block `t`. -/
theorem index_facts : ∀ t : Fin cfg0.N, win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = t.val :=
  (by decide +kernel : ∀ t : Fin grid0.N, _)

/-- What the body leaves in the result buffer at point `t`: the product term of the hidden block and the weight
    block, the rows past the array's end at zero. -/
theorem after_out (c : Dev nD) (t : Fin cfg0.N) :
    (dats m 0 c).after (2 : Fin 3) t = k0_pay1 (F := Ideal) (hiddenBlk m c t) (weightBlk m c t (fun _ => (0 : EReal))) := by
  dsimp only [dats]

/-- What point `t` writes back is its block of the logits. -/
theorem flushed_eq (c : Dev nD) (t : Fin cfg0.N) :
    (dats m 0 c).flushed (2 : Fin 3) t
      = ((cfg0.win 2).blk t).view.read (Elt Ideal) (logits (m ((c : Thread nD τ).loc main_arg0)) (m ((c : Thread nD τ).loc main_arg1))) := by
  show (cfg0.win 2).cut (grid0.coords t) ((dats m 0 c).after (2 : Fin 3) t) = _
  rw [after_out]
  funext j
  have hj2 : (j 2).val < win0_2.xsize (grid0.coords t) 2 := (j 2).isLt
  have e : (win0_2.xinj (grid0.coords t) j : S32x1x2048.Idx)
      = ix3 (n0 := 32) (n1 := 1) (n2 := 2048) (win0_2.xinj (grid0.coords t) j 0) (win0_2.xinj (grid0.coords t) j 1) (win0_2.xinj (grid0.coords t) j 2) := eq_ix3 _
  show k0_pay1 (F := Ideal) (hiddenBlk m c t) (win0_1.fill (grid0.coords t) (fun _ => (0 : EReal)) (weightPart m c t)) (win0_2.xinj (grid0.coords t) j)
    = logits (m ((c : Thread nD τ).loc main_arg0)) (m ((c : Thread nD τ).loc main_arg1)) (((cfg0.win 2).blk t).view.emb j)
  rw [e]
  refine (pay_fill_apply _ _ _ _ _ _ _ hj2).trans ?_
  unfold logits
  refine Finset.sum_congr rfl fun k _ => ?_
  obtain ⟨a0, a1, a2, b0, b1, c0, c1, c2⟩ := index_facts t
  congr 1
  · show m ((c : Thread nD τ).loc main_arg0) (((cfg0.win 0).blk t).view.emb (ix3 (n0 := 32) (n1 := 1) (n2 := 1024) (win0_2.xinj (grid0.coords t) j 0) (win0_2.xinj (grid0.coords t) j 1) k)) = _
    refine congrArg (m ((c : Thread nD τ).loc main_arg0)) (funext fun a => Fin.ext ?_)
    match a with
    | ⟨0, _⟩ => show win0_0.index t (0 : Fin 3) * 32 + 1 * (j 0).val = win0_2.index t (0 : Fin 3) * 32 + 1 * (j 0).val; omega
    | ⟨1, _⟩ => show win0_0.index t (1 : Fin 3) * 1 + 1 * (j 1).val = win0_2.index t (1 : Fin 3) * 1 + 1 * (j 1).val; omega
    | ⟨2, _⟩ => show win0_0.index t (2 : Fin 3) * 1024 + 1 * k.val = k.val; omega
  · show m ((c : Thread nD τ).loc main_arg1) (((cfg0.win 1).blk t).view.emb (fun a => ⟨((ix2 (n0 := 2048) (n1 := 1024) (win0_2.xinj (grid0.coords t) j 2) k : S2048x1024.Idx) a).val, weight_lt _ _ _ hj2 a⟩)) = _
    refine congrArg (m ((c : Thread nD τ).loc main_arg1)) (funext fun a => Fin.ext ?_)
    match a with
    | ⟨0, _⟩ => show win0_1.index t (0 : Fin 2) * 2048 + 1 * (j 2).val = win0_2.index t (2 : Fin 3) * 2048 + 1 * (j 2).val; omega
    | ⟨1, _⟩ => show win0_1.index t (1 : Fin 2) * 1024 + 1 * k.val = k.val; omega

/-! ## The blocks cover the array -/

/-- An index of the result array is in point `t`'s block iff each coordinate is in the block's range on its axis, cut at
    the array's end. -/
theorem mem_blk (t : Fin cfg0.N) (i : S32x1x100000.Idx) :
    i ∈ ((cfg0.win 2).blk t).view.set ↔ ∀ a : Fin 3, win0_2.index t a * S32x1x2048.size a ≤ (i a).val
      ∧ (i a).val < win0_2.index t a * S32x1x2048.size a + win0_2.xsize (grid0.coords t) a := by
  show i ∈ ((View.whole main_v0).slice (win0_2.rect t)).set ↔ _
  rw [View.set_slice_whole, Rect.mem_set_unit]
  exact Iff.rfl

/-- How much of its block each point's write-back moves: all 32 rows and the unit axis, and on the column axis
    up to the array's end at 100000 (2048 columns, 1696 at the last point). -/
theorem xsize_facts : ∀ t : Fin cfg0.N, win0_2.xsize (grid0.coords t) (0 : Fin 3) = 32 ∧ win0_2.xsize (grid0.coords t) (1 : Fin 3) = 1
    ∧ t.val * 2048 + win0_2.xsize (grid0.coords t) (2 : Fin 3) = min (t.val * 2048 + 2048) 100000 :=
  (by decide +kernel : ∀ t : Fin grid0.N, _)

/-- Column `v` of the result lies in the block of point `v / 2048`, which writes it back. -/
theorem cover (i : S32x1x100000.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 100000 := (i 2).isLt
  have hN : (i 2).val / 2048 < cfg0.N := by show (i 2).val / 2048 < 49; omega
  refine ⟨⟨(i 2).val / 2048, hN⟩, flush0_2 _, ?_⟩
  rw [mem_blk]
  obtain ⟨_, _, _, _, _, c0, c1, c2⟩ := index_facts ⟨(i 2).val / 2048, hN⟩
  obtain ⟨x0, x1, x2⟩ := xsize_facts ⟨(i 2).val / 2048, hN⟩
  have c2' : win0_2.index ⟨(i 2).val / 2048, hN⟩ (2 : Fin 3) = (i 2).val / 2048 := c2
  have x2' : (i 2).val / 2048 * 2048 + win0_2.xsize (grid0.coords ⟨(i 2).val / 2048, hN⟩) (2 : Fin 3) = min ((i 2).val / 2048 * 2048 + 2048) 100000 := x2
  intro a
  match a with
  | ⟨0, _⟩ =>
    show win0_2.index ⟨(i 2).val / 2048, hN⟩ (0 : Fin 3) * 32 ≤ (i 0).val ∧ (i 0).val < win0_2.index ⟨(i 2).val / 2048, hN⟩ (0 : Fin 3) * 32 + win0_2.xsize (grid0.coords ⟨(i 2).val / 2048, hN⟩) (0 : Fin 3)
    omega
  | ⟨1, _⟩ =>
    show win0_2.index ⟨(i 2).val / 2048, hN⟩ (1 : Fin 3) * 1 ≤ (i 1).val ∧ (i 1).val < win0_2.index ⟨(i 2).val / 2048, hN⟩ (1 : Fin 3) * 1 + win0_2.xsize (grid0.coords ⟨(i 2).val / 2048, hN⟩) (1 : Fin 3)
    omega
  | ⟨2, _⟩ =>
    show win0_2.index ⟨(i 2).val / 2048, hN⟩ (2 : Fin 3) * 2048 ≤ (i 2).val ∧ (i 2).val < win0_2.index ⟨(i 2).val / 2048, hN⟩ (2 : Fin 3) * 2048 + win0_2.xsize (grid0.coords ⟨(i 2).val / 2048, hN⟩) (2 : Fin 3)
    omega

/-- After the run the result array holds the logits. -/
theorem final (c : Dev nD) :
    (dats m 0 c).arrAt (2 : Fin 3) cfg0.N = logits (m ((c : Thread nD τ).loc main_arg0)) (m ((c : Thread nD τ).loc main_arg1)) :=
  (dats m 0 c).arrAt_eq_of_cover (2 : Fin 3) (logits (m ((c : Thread nD τ).loc main_arg0)) (m ((c : Thread nD τ).loc main_arg1)))
    (fun t _ => flushed_eq m c t) cover

end Cert.KernelIdeal.HeadValue

end
-- ==== Proof.HeadRunI.lean ====
/-
  The idealized head kernel's run: every execution terminates, the argument arrays end as they began, and the
  result array ends holding the logits.

  At each grid point the body is handed the hidden-state block, the weight rows of the point (over arbitrary
  contents on the staging rows past the array's end) and an output block of arbitrary contents; it hands back the
  inputs unchanged and the output block at their product. On the columns the clipped write-back moves, that product
  reads only weight rows inside the array, so it is the same whatever the staging rows past the end held: this
  is what lets the data name the output's moved part, which is all the obligation of a clipped window states.
-/
import proofs.«162671_g17927193493834_cont_7to1_830_4_alg».proof.Proof.HeadValueI
import Idealize.ShloMosaic.Lib.Pipeline.Frame

noncomputable section

namespace Cert.KernelIdeal.HeadRun

open Cert.KernelIdeal Cert.KernelIdeal.Gen Cert.KernelIdeal.HeadBody Cert.KernelIdeal.HeadData Cert.KernelIdeal.HeadValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The weight buffer as the body leaves it: the fetched rows over whatever the rows past the array's end held,
    which on the fetched rows is the data's. -/
theorem weight_left (c : Dev nD) (t : Fin cfg0.N) (d1 : Vec Ideal S2048x1024 .f32) :
    (win0 1).fill (grid0.coords t) d1 ((win0 1).cut (grid0.coords t) ((dats m 0 c).after 1 t)) = weightBlk m c t d1 := by
  dsimp only [dats]
  rw [Window.cut_fill]

/-- The output buffer as the body leaves it: the product of the hidden-state block with the weight buffer's whole
    contents. On the columns the clipped write-back moves it reads only weight rows inside the array, so there it
    is the data's product, whatever the rows past the array's end held. -/
theorem out_left (c : Dev nD) (t : Fin cfg0.N) (d1 : Vec Ideal S2048x1024 .f32) :
    (win0 2).fill (grid0.coords t) (k0_pay1 (F := Ideal) (hiddenBlk m c t) (weightBlk m c t d1))
        ((win0 2).cut (grid0.coords t) ((dats m 0 c).after 2 t))
      = k0_pay1 (F := Ideal) (hiddenBlk m c t) (weightBlk m c t d1) := by
  refine Window.fill_congr_cut _ _ ?_
  dsimp only [dats]
  exact cut_pay_indep (grid0.coords t) (hiddenBlk m c t) d1 _ (weightPart m c t)

/-- The body obligation: from the three current staging buffers as the pipeline hands them over, the body runs and
    leaves the hidden-state buffer at its block, the weight buffer at its rows (the rows past the array's end as
    they were), and the output buffer at a block whose moved part is the data's. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_hidden m c t d0, before_weight m c t d1, before_out m c t d2]
  iapply (body_triple (F := Ideal) c Set.univ (grid0.coords t) (cfg0.slots t 0) (cfg0.slots t 1) (cfg0.slots t 2)
    (hiddenBlk m c t) (weightBlk m c t d1) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexists d1
    rw [weight_left m c t d1]; try iexact H1
  · iexists k0_pay1 (F := Ideal) (hiddenBlk m c t) (weightBlk m c t d1)
    rw [out_left m c t d1]; try iexact H2

/-- Every weakly fair execution of @main terminates, and every final state has each array of the kernel at what
    the write-backs make of it. -/
theorem run_main : θ_run defs (onTc (τ := τ) (main (F := Ideal))) (s₀ m ρ) (Pipeline.FramePost cfgs (dats m) 0 (V m)) :=
  Pipeline.θ_run_frame cfgs (dats m) 0 launch0 defs₀ 𝒱₀ m ρ main
    (hbody := body_obligation m) (hshare := fun c => (dats m 0 c).share_full fun _ => rfl) (howed := fun _ _ => rfl)
    (V := V m) (hmain := hmain m 𝒱₀) (hA := fun _ _ => rfl) (hΦ := fun _ _ => rfl)

/-- The frame: the argument arrays end as they began. -/
theorem frame :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

/-- The value: the result array ends holding the logits of the argument arrays, which end as they began. -/
theorem run_value :
    θ_run defs (onTc (τ := τ) (main (F := Ideal))) ⟨m, fun _ => 0, ρ⟩ (fun r => ∀ c : Dev nD,
      r.2.mem ((c.tc : Thread nD τ).loc main_v0)
          = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (final m c),
       ((h c).1 0).trans (((dats m 0 c).arrAt_in 0 rfl _).trans (V_main_arg0 m c)),
       ((h c).1 1).trans (((dats m 0 c).arrAt_in 1 rfl _).trans (V_main_arg1 m c))⟩) (run_main m ρ)

end Cert.KernelIdeal.HeadRun

end
-- ==== Proof.HeadRef.lean ====
/-
  The reference's result is the logits.

  The reference is one contraction of the hidden-state array's last axis against the weight array's last axis. Read at
  an index `(b, s, v)` it is the sum over `k` of `hidden(b, s, k) · weight(v, k)`: the same function of the two
  argument arrays that the kernel's write-backs assemble block by block.
-/
import proofs.«162671_g17927193493834_cont_7to1_830_4_alg».proof.Proof.HeadValueI
import proofs.«162671_g17927193493834_cont_7to1_830_4_alg».proof.Proof.Gen.ReferenceIdeal.Run
import proofs.«162671_g17927193493834_cont_7to1_830_4_alg».proof.Proof.Gen.ReferenceIdeal.Read
import Idealize.ShloMosaic.Lib.ValueIdx

noncomputable section

namespace Cert.ReferenceIdeal.HeadRef

open Cert.ReferenceIdeal Cert.ReferenceIdeal.Gen Idealize.ShloMosaic Idealize.ShloMosaic.ValueIdx

/-- The hidden-state index the contraction reads at result index `i` and contraction index `k`: `(i 0, i 1, k)`. -/
theorem hidden_index (i : S32x1x100000.Idx) (k : Fin 1024) : Read.lidx_main_v0 i k = ix3 (i 0) (i 1) k :=
  funext fun a => by
    match a with
    | ⟨0, _⟩ => rfl
    | ⟨1, _⟩ => rfl
    | ⟨2, _⟩ => rfl

/-- The weight index it reads: `(i 2, k)`. -/
theorem weight_index (i : S32x1x100000.Idx) (k : Fin 1024) : Read.ridx_main_v0 i k = ix2 (i 2) k :=
  funext fun a => by
    match a with
    | ⟨0, _⟩ => rfl
    | ⟨1, _⟩ => rfl

/-- The reference's contraction of the two argument arrays is the logits. -/
theorem reference_eq (x0 : (⟨S32x1x1024, .f32⟩ : BufTy).Contents (Elt Ideal)) (x1 : (⟨S100000x1024, .f32⟩ : BufTy).Contents (Elt Ideal)) :
    Read.val_main_v0 (F := Ideal) x0 x1 = Cert.KernelIdeal.HeadValue.logits x0 x1 := by
  funext i
  rw [Read.val_main_v0_apply]
  simp only [hidden_index, weight_index]
  rfl

end Cert.ReferenceIdeal.HeadRef

end
-- ==== Proof.lean ====
/-
  The head kernel against its reference: logits = hidden · weightᵀ.

  The kernel streams the [100000, 1024] weight through VMEM in 49 blocks of 2048 rows, keeps the [32, 1, 1024]
  hidden state resident, and at each block writes the [32, 1, 2048] product block into the result; the last
  block overhangs the array by 352 rows, whose staging contents nothing names and which reach only result columns
  the clipped write-back never writes. The reference contracts the two arrays in one operation. At the ideal
  values the narrowing of the operands to bf16 is the identity and a product into a zero accumulator is the plain
  sum over the contracted axis, so both programs end with
      logits(b, s, v) = Σ_k hidden(b, s, k) · weight(v, k),
  index by index on the extended reals; no law beyond reading the two sums at an index joins them, and the
  precondition is not used.

  The frames: the kernel as printed by relational proof data that say nothing of the staging contents (its product
  is opaque in the whole weight block, the unnamed rows included); the idealized kernel by exact proof data, the
  clipped windows stated on the part inside the arrays; the reference by its generated run. The ideal pass
  rewrote nothing, so `preserves` has no conjunct.
-/
import proofs.«162671_g17927193493834_cont_7to1_830_4_alg».proof.Defs
import proofs.«162671_g17927193493834_cont_7to1_830_4_alg».proof.Proof.Gen.Kernel
import proofs.«162671_g17927193493834_cont_7to1_830_4_alg».proof.Proof.Gen.KernelIdeal
import proofs.«162671_g17927193493834_cont_7to1_830_4_alg».proof.Proof.Gen.ReferenceIdeal
import proofs.«162671_g17927193493834_cont_7to1_830_4_alg».proof.Proof.Gen.Pre_finite_inputs
import proofs.«162671_g17927193493834_cont_7to1_830_4_alg».proof.Proof.Gen.ReferenceIdeal.Run
import proofs.«162671_g17927193493834_cont_7to1_830_4_alg».proof.Proof.HeadFrameB
import proofs.«162671_g17927193493834_cont_7to1_830_4_alg».proof.Proof.HeadRunI
import proofs.«162671_g17927193493834_cont_7to1_830_4_alg».proof.Proof.HeadRef
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.HeadFrame.frame (F := Bits) m ρ

/-- So does the idealized kernel. -/
theorem frame_kernel_ideal : Cert.frame_KernelIdeal := fun m ρ _ => Cert.KernelIdeal.HeadRun.frame m ρ

/-- So does the reference: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the logits of those arguments. -/
theorem algebraic : Cert.algebraic_KernelIdeal_ReferenceIdeal := by
  intro m ρ m' ρ' _ hagree
  refine ⟨_, Cert.KernelIdeal.HeadRun.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.HeadRef.reference_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
